-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S128000x16 : Shape := ⟨2, ![128000, 16]⟩
abbrev S16x1024 : Shape := ⟨2, ![16, 1024]⟩
abbrev S_ : Shape := ⟨0, ![]⟩

class Facts : Prop where
  bcast_S_S128000x16 : S_.BroadcastsInDim S128000x16 (![] : Fin 0 → Fin S128000x16.rank)
  reducesTo_S128000x16_S_d0_1 : S128000x16.ReducesTo [0, 1] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S32x2048 : S_.BroadcastsInDim S32x2048 (![] : Fin 0 → Fin S32x2048.rank)
  reducesTo_S32x2048_S_d0_1 : S32x2048.ReducesTo [0, 1] S_

variable [Facts]

def fn {F : FTy → Type} [FloatOps F] (main_arg0 : IVec S32x2048 32) (main_arg1 : FVec F S128000x16 .f32) (main_arg2 : FVec F S16x1024 .f32) : IVec S_ 1 :=
  let main_v0 : FVec F S128000x16 .f32 := Host.absf main_arg1
  let main_cst : FVec F S_ .f32 := constant S_ .f32 0x7F800000#32
  let main_v1 : FVec F S128000x16 .f32 := broadcastInDim S128000x16 ![] bcast_S_S128000x16 main_cst
  let main_v2 : IVec S128000x16 1 := cmpf .olt main_v0 main_v1
  let main_c : IVec S_ 1 := constantI S_ 1 1#1
  let main_v3 : IVec S_ 1 := (fun x v => Host.reduce IntOp.andi x v reducesTo_S128000x16_S_d0_1 h_S_) main_v2 main_c
  let main_v4 : FVec F S16x1024 .f32 := Host.absf main_arg2
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  let main_c_2 : IVec S_ 32 := constantI S_ 32 4294839296#32
  let main_v9 : IVec S32x2048 32 := broadcastInDim S32x2048 ![] bcast_S_S32x2048 main_c_2
  let main_v10 : IVec S32x2048 1 := cmpi .sge main_arg0 main_v9
  let main_c_3 : IVec S_ 32 := constantI S_ 32 128000#32
  let main_v11 : IVec S32x2048 32 := broadcastInDim S32x2048 ![] bcast_S_S32x2048 main_c_3
  let main_v12 : IVec S32x2048 1 := cmpi .slt main_arg0 main_v11
  let main_v13 : IVec S32x2048 1 := andi main_v10 main_v12
  let main_c_4 : IVec S_ 1 := constantI S_ 1 1#1
  let main_v14 : IVec S_ 1 := (fun x v => Host.reduce IntOp.andi x v reducesTo_S32x2048_S_d0_1 h_S_) main_v13 main_c_4
  let main_v15 : IVec S_ 1 := andi main_v8 main_v14
  main_v15
-- ==== Kernel.lean ====
abbrev S32x2048 : Shape := ⟨2, ![32, 2048]⟩
abbrev S128000x16 : Shape := ⟨2, ![128000, 16]⟩
abbrev S16x1024 : Shape := ⟨2, ![16, 1024]⟩
abbrev S65536 : Shape := ⟨1, ![65536]⟩
abbrev S_ : Shape := ⟨0, ![]⟩
abbrev S65536x1 : Shape := ⟨2, ![65536, 1]⟩
abbrev S1 : Shape := ⟨1, ![1]⟩
abbrev S1x1 : Shape := ⟨2, ![1, 1]⟩
abbrev S65536x16 : Shape := ⟨2, ![65536, 16]⟩
abbrev S65536x1024 : Shape := ⟨2, ![65536, 1024]⟩
abbrev S4096x16 : Shape := ⟨2, ![4096, 16]⟩
abbrev S4096x1024 : Shape := ⟨2, ![4096, 1024]⟩
abbrev S32x2048x1024 : Shape := ⟨3, ![32, 2048, 1024]⟩

abbrev nBuf : Space → Nat
  | .hbm => 29
  | .vmem => 5
  | .smem => 0
  | _ => 0

abbrev bufTy : (tb : Table) → Fin (tcTables nBuf tb) → BufTy
  | .hbm, ⟨0, _⟩ => ⟨S32x2048, .i32⟩
  | .hbm, ⟨1, _⟩ => ⟨S128000x16, .f32⟩
  | .hbm, ⟨2, _⟩ => ⟨S16x1024, .f32⟩
  | .hbm, ⟨3, _⟩ => ⟨S65536, .i32⟩
  | .hbm, ⟨4, _⟩ => ⟨S_, .i32⟩
  | .hbm, ⟨5, _⟩ => ⟨S65536, .i32⟩
  | .hbm, ⟨6, _⟩ => ⟨S65536, .i1⟩
  | .hbm, ⟨7, _⟩ => ⟨S_, .i32⟩
  | .hbm, ⟨8, _⟩ => ⟨S65536, .i32⟩
  | .hbm, ⟨9, _⟩ => ⟨S65536, .i32⟩
  | .hbm, ⟨10, _⟩ => ⟨S65536, .i32⟩
  | .hbm, ⟨11, _⟩ => ⟨S65536x1, .i32⟩
  | .hbm, ⟨12, _⟩ => ⟨S1, .i32⟩
  | .hbm, ⟨13, _⟩ => ⟨S_, .i32⟩
  | .hbm, ⟨14, _⟩ => ⟨S65536x1, .i32⟩
  | .hbm, ⟨15, _⟩ => ⟨S65536x1, .i1⟩
  | .hbm, ⟨16, _⟩ => ⟨S1x1, .i32⟩
  | .hbm, ⟨17, _⟩ => ⟨S65536x1, .i32⟩
  | .hbm, ⟨18, _⟩ => ⟨S65536x1, .i1⟩
  | .hbm, ⟨19, _⟩ => ⟨S65536x1, .i1⟩
  | .hbm, ⟨20, _⟩ => ⟨S_, .i1⟩
  | .hbm, ⟨21, _⟩ => ⟨S65536, .i1⟩
  | .hbm, ⟨22, _⟩ => ⟨S65536x16, .f32⟩
  | .hbm, ⟨23, _⟩ => ⟨S65536x16, .i1⟩
  | .hbm, ⟨24, _⟩ => ⟨S_, .f32⟩
  | .hbm, ⟨25, _⟩ => ⟨S65536x16, .f32⟩
  | .hbm, ⟨26, _⟩ => ⟨S65536x16, .f32⟩
  | .hbm, ⟨27, _⟩ => ⟨S65536x1024, .f32⟩
  | .hbm, ⟨28, _⟩ => ⟨S32x2048x1024, .f32⟩
  | .local _ .vmem, ⟨0, _⟩ => ⟨S4096x16, .f32⟩
  | .local _ .vmem, ⟨1, _⟩ => ⟨S4096x16, .f32⟩
  | .local _ .vmem, ⟨2, _⟩ => ⟨S16x1024, .f32⟩
  | .local _ .vmem, ⟨3, _⟩ => ⟨S4096x1024, .f32⟩
  | .local _ .vmem, ⟨4, _⟩ => ⟨S4096x1024, .f32⟩
  | _, _ => ⟨S32x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x2048_S65536 : S32x2048.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  reducesTo_S65536x1_S65536_d1 : S65536x1.ReducesTo [1] S65536
  h_S_ : 0 < S_.numel
  bcast_S65536_S65536x16_0 : S65536.BroadcastsInDim S65536x16 (![0] : Fin 1 → Fin S65536x16.rank)
  bcast_S_S65536x16 : S_.BroadcastsInDim S65536x16 (![] : Fin 0 → Fin S65536x16.rank)
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  bitsLt_bf16_f32 : FTy.bits .bf16 < FTy.bits .f32
  inb_S16x1024_S16x1024_0_0 : ∀ a, (![0, 0] : Fin 2 → Nat) a + S16x1024.size a ≤ S16x1024.size a
  h_S16x1024 : 0 < S16x1024.numel
  inb_S4096x1024_S4096x1024_0_0 : ∀ a, (![0, 0] : Fin 2 → Nat) a + S4096x1024.size a ≤ S4096x1024.size a
  h_S4096x1024 : 0 < S4096x1024.numel
  shapeCasts_S65536x1024_S32x2048x1024 : S65536x1024.ShapeCasts S32x2048x1024
  gather_S128000x16_S65536x1_S65536x16_1_0_n_n_0_1_116_wf : GatherDims.WF S128000x16 S65536x1 S65536x16 [1] [0] [] [0] [] 1 ![1, 16]
  dot_S4096x16_S16x1024_S4096x1024_1_0_0_1_n_n_wf : DotDims.WF S4096x16 S16x1024 S4096x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S65536x16.size a
  hwx0_0 : ∀ i : grid0.Coords, EltTy.bits .f32 = 32 ∨ (Rect.block (s := S65536x16) S4096x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S16x1024.size a
  hwx0_1 : ∀ i : grid0.Coords, EltTy.bits .f32 = 32 ∨ (Rect.block (s := S16x1024) S16x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S65536x1024.size a
  hwx0_2 : ∀ i : grid0.Coords, EltTy.bits .f32 = 32 ∨ (Rect.block (s := S65536x1024) S4096x1024.size (cc0_transform_2 i) (hinb0_2 i)).WholeWords (EltTy.packing .f32)

variable [Facts₀]

def gather_S128000x16_S65536x1_S65536x16_1_0_n_n_0_1_116 : GatherDims S128000x16 S65536x1 S65536x16 where
  offsetDims := [1]
  collapsedSliceDims := [0]
  operandBatchingDims := []
  startIndicesBatchingDims := []
  startIndexMap := [0]
  indexVectorDim := 1
  sliceSizes := ![1, 16]
  wf := gather_S128000x16_S65536x1_S65536x16_1_0_n_n_0_1_116_wf
def dot_S4096x16_S16x1024_S4096x1024_1_0_0_1_n_n : DotDims S4096x16 S16x1024 S4096x1024 where
  lhsContracting := [1]
  rhsContracting := [0]
  lhsNonContracting := [0]
  rhsNonContracting := [1]
  lhsBatch := []
  rhsBatch := []
  wf := dot_S4096x16_S16x1024_S4096x1024_1_0_0_1_n_n_wf

abbrev win0_0 : Pipeline.Window sig grid0 :=
  Pipeline.Window.ofSpec (Memref.whole main_v1) S4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x2048 : Shape := ⟨2, ![32, 2048]⟩
abbrev S128000x16 : Shape := ⟨2, ![128000, 16]⟩
abbrev S16x1024 : Shape := ⟨2, ![16, 1024]⟩
abbrev S128000x1024 : Shape := ⟨2, ![128000, 1024]⟩
abbrev S_ : Shape := ⟨0, ![]⟩
abbrev S32x2048x1 : Shape := ⟨3, ![32, 2048, 1]⟩
abbrev S1 : Shape := ⟨1, ![1]⟩
abbrev S1x1x1 : Shape := ⟨3, ![1, 1, 1]⟩
abbrev S32x2048x1024 : Shape := ⟨3, ![32, 2048, 1024]⟩

abbrev nBuf : Space → Nat
  | .hbm => 27
  | .vmem => 0
  | .smem => 0
  | _ => 0

abbrev bufTy : (tb : Table) → Fin (tcTables nBuf tb) → BufTy
  | .hbm, ⟨0, _⟩ => ⟨S32x2048, .i32⟩
  | .hbm, ⟨1, _⟩ => ⟨S128000x16, .f32⟩
  | .hbm, ⟨2, _⟩ => ⟨S16x1024, .f32⟩
  | .hbm, ⟨3, _⟩ => ⟨S128000x1024, .f32⟩
  | .hbm, ⟨4, _⟩ => ⟨S_, .i32⟩
  | .hbm, ⟨5, _⟩ => ⟨S32x2048, .i32⟩
  | .hbm, ⟨6, _⟩ => ⟨S32x2048, .i1⟩
  | .hbm, ⟨7, _⟩ => ⟨S_, .i32⟩
  | .hbm, ⟨8, _⟩ => ⟨S32x2048, .i32⟩
  | .hbm, ⟨9, _⟩ => ⟨S32x2048, .i32⟩
  | .hbm, ⟨10, _⟩ => ⟨S32x2048, .i32⟩
  | .hbm, ⟨11, _⟩ => ⟨S32x2048x1, .i32⟩
  | .hbm, ⟨12, _⟩ => ⟨S1, .i32⟩
  | .hbm, ⟨13, _⟩ => ⟨S_, .i32⟩
  | .hbm, ⟨14, _⟩ => ⟨S32x2048x1, .i32⟩
  | .hbm, ⟨15, _⟩ => ⟨S32x2048x1, .i1⟩
  | .hbm, ⟨16, _⟩ => ⟨S1x1x1, .i32⟩
  | .hbm, ⟨17, _⟩ => ⟨S32x2048x1, .i32⟩
  | .hbm, ⟨18, _⟩ => ⟨S32x2048x1, .i1⟩
  | .hbm, ⟨19, _⟩ => ⟨S32x2048x1, .i1⟩
  | .hbm, ⟨20, _⟩ => ⟨S_, .i1⟩
  | .hbm, ⟨21, _⟩ => ⟨S32x2048, .i1⟩
  | .hbm, ⟨22, _⟩ => ⟨S32x2048x1024, .f32⟩
  | .hbm, ⟨23, _⟩ => ⟨S32x2048x1024, .i1⟩
  | .hbm, ⟨24, _⟩ => ⟨S_, .f32⟩
  | .hbm, ⟨25, _⟩ => ⟨S32x2048x1024, .f32⟩
  | .hbm, ⟨26, _⟩ => ⟨S32x2048x1024, .f32⟩
  | _, _ => ⟨S32x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩

abbrev nD : Nat := 1
abbrev τ : Topo := Topo.v7x

variable {F : FTy → Type} [FloatOps F]

class Facts₀ : Prop where
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S_S32x2048x1 : S_.BroadcastsInDim S32x2048x1 (![] : Fin 0 → Fin S32x2048x1.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  reducesTo_S32x2048x1_S32x2048_d2 : S32x2048x1.ReducesTo [2] S32x2048
  h_S_ : 0 < S_.numel
  bcast_S32x2048_S32x2048x1024_0_1 : S32x2048.BroadcastsInDim S32x2048x1024 (![0, 1] : Fin 2 → Fin S32x2048x1024.rank)
  bcast_S_S32x2048x1024 : S_.BroadcastsInDim S32x2048x1024 (![] : Fin 0 → Fin S32x2048x1024.rank)
  dot_S128000x16_S16x1024_S128000x1024_1_0_0_1_n_n_wf : DotDims.WF S128000x16 S16x1024 S128000x1024 [1] [0] [0] [1] [] []
  gather_S128000x1024_S32x2048x1_S32x2048x1024_2_0_n_n_0_2_11024_wf : GatherDims.WF S128000x1024 S32x2048x1 S32x2048x1024 [2] [0] [] [0] [] 2 ![1, 1024]

variable [Facts₀]

def dot_S128000x16_S16x1024_S128000x1024_1_0_0_1_n_n : DotDims S128000x16 S16x1024 S128000x1024 where
  lhsContracting := [1]
  rhsContracting := [0]
  lhsNonContracting := [0]
  rhsNonContracting := [1]
  lhsBatch := []
  rhsBatch := []
  wf := dot_S128000x16_S16x1024_S128000x1024_1_0_0_1_n_n_wf
def gather_S128000x1024_S32x2048x1_S32x2048x1024_2_0_n_n_0_2_11024 : GatherDims S128000x1024 S32x2048x1 S32x2048x1024 where
  offsetDims := [2]
  collapsedSliceDims := [0]
  operandBatchingDims := []
  startIndicesBatchingDims := []
  startIndexMap := [0]
  indexVectorDim := 2
  sliceSizes := ![1, 1024]
  wf := gather_S128000x1024_S32x2048x1_S32x2048x1024_2_0_n_n_0_2_11024_wf

class Facts : Prop extends Facts₀ where

variable [Facts]
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.LibColumnTake.lean ====
/-
  THE TAKE ALONG A TABLE'S SECOND AXIS, and the words of an index that is in range.

  A host `stablehlo.gather` of a [D × N] table whose start indices are an [n × 1] column, the table's second axis
  collapsed and start-indexed and its first axis whole (slice sizes [D, 1]) and read by the result's offset axis 0, reads
  at result element (j, e) the table's element (j, r), r the start index of row `e` read signed and clamped into the table
  (`gather_cols`; the mirror image of the row take `gather_rows`). Around such a gather a `take` wraps a negative index
  by the axis length, tests the wrapped index against [0, length − 1] by an and-reduction over the unit axis of the
  column, and keeps the gathered element where the test holds. For a word that reads signed as a number in range the wrap
  is idle (`wrap_word`), the test holds (`range_word`), the and-reduction over the unit axis of an [n × 1] column of bits
  is 1 at a row whose bit is 1 (`reduce_andi_col1`), and a vector laid along one axis of a rectangle reads its own entry
  (`bcast_along1`, `bcast_along0`).
-/
import proofs.«154715_j27685359190360_1_alg».proof.Proof.LibGatherScatter
import Idealize.ShloMosaic.Lib.StableHlo.Predicate
import Idealize.ShloMosaic.Lib.ValueIdx
import Idealize.ShloMosaic.Lib.Pipeline.Value
import Idealize.ShloMosaic.PureOps.Reduce

open scoped BigOperators

namespace Idealize.ShloMosaic.RowOps

open Idealize.ShloMosaic Idealize.ShloMosaic.ValueIdx Idealize.ShloMosaic.StableHlo.Predicate

/-! ## The take along the second axis -/

/-- Every element of a one-element list is that element. -/
private theorem getElem_singleton_of_eq' {β : Type} {l : List β} {b : β} (h : l = [b]) (k : Nat) (hk : k < l.length) :
    l[k] = b :=
  List.mem_singleton.1 (h ▸ List.getElem_mem hk)

/-- THE COLUMN TAKE. A `stablehlo.gather` of a [D × N] operand whose start indices are an [n × 1] column of column
    numbers: operand axis 1 collapsed and start-indexed, operand axis 0 whole (slice sizes [D, 1]) and read by the
    result's offset axis 0, no batching axes, the index vector on axis 1. Result element (j, e) is the operand's element
    (j, r), r the start index of row `e` read signed and clamped into [0, N − 1]. -/
theorem gather_cols {α : Type} {N D n w : Nat} (d : GatherDims ⟨2, ![D, N]⟩ ⟨2, ![n, 1]⟩ ⟨2, ![D, n]⟩)
    (hoff : d.offsetDims = [0]) (hcoll : d.collapsedSliceDims = [1]) (hob : d.operandBatchingDims = [])
    (hsim : d.startIndexMap = [1]) (hivd : d.indexVectorDim = 1) (hss : d.sliceSizes = ![D, 1])
    (x : (⟨2, ![D, N]⟩ : Shape).Idx → α) (idx : IVec ⟨2, ![n, 1]⟩ w) (j : Fin D) (e : Fin n) (hN : 0 < N) :
    Host.gather d x idx (ix2 j e) = x (ix2 j (clampRow N hN idx e)) := by
  have hb : ∀ a : Fin 2, a ∉ d.operandBatchingDims := fun a => by rw [hob]; exact List.not_mem_nil
  -- the result's batch axes: the one axis that is not the offset axis
  have hbd : d.batchDims = [1] := by
    show Shape.kept _ d.offsetDims = [1]
    rw [hoff]
    show (List.finRange 2).filter (fun a : Fin 2 => a ∉ [(0 : Fin 2)]) = [1]
    decide
  -- axis 1: collapsed and start-indexed, the clamped start alone
  have h1 : (d.operandIdx (ix2 j e) idx (1 : Fin 2)).val = (clampRow N hN idx e).val := by
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := by rw [hss]; rfl
    show d.start (ix2 j e) idx 1 + d.batchCoord (ix2 j e) 1 + d.offCoord (ix2 j e) 1 = min (idx (ixP e)).toInt.toNat (N - 1)
    rw [GatherDims.batchCoord_eq_zero _ _ _ (hb 1), GatherDims.offCoord_eq_zero _ _ _ hk, Nat.add_zero]
    unfold GatherDims.start
    rw [dif_pos hm]
    show min (idx _).toInt.toNat (N - d.sliceSizes 1) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 1 → ((ix2 j e : (⟨2, ![D, n]⟩ : Shape).Idx) X).val = e.val := fun X hX => by subst hX; rfl
      exact he _ (getElem_singleton_of_eq' hbd _ _)
    | ⟨1, _⟩ =>
      unfold GatherDims.siIdx
      rw [dif_pos (by rw [hivd])]
      apply Fin.ext
      show List.idxOf (1 : Fin 2) d.startIndexMap = 0
      rw [hsim]; simp
  -- axis 0: neither start-indexed nor collapsed, the offset coordinate alone
  have h0 : (d.operandIdx (ix2 j e) idx (0 : Fin 2)).val = j.val := by
    have hk : (0 : Fin 2) ∈ d.sKept := by rw [GatherDims.mem_sKept, hcoll, hob]; simp
    have hm : (0 : Fin 2) ∉ d.startIndexMap := by rw [hsim]; simp
    show d.start (ix2 j e) idx 0 + d.batchCoord (ix2 j e) 0 + d.offCoord (ix2 j e) 0 = j.val
    rw [GatherDims.batchCoord_eq_zero _ _ _ (hb 0), Nat.add_zero]
    unfold GatherDims.start GatherDims.offCoord
    rw [dif_neg hm, dif_pos hk, Nat.zero_add]
    have hj : ∀ X : Fin 2, X = 0 → ((ix2 j e : (⟨2, ![D, n]⟩ : Shape).Idx) X).val = j.val := fun X hX => by subst hX; rfl
    exact hj _ (getElem_singleton_of_eq' hoff _ _)
  unfold Host.gather
  congr 1
  funext a
  apply Fin.ext
  match a with
  | ⟨0, _⟩ => exact h0
  | ⟨1, _⟩ => exact h1

/-! ## The words of an index in range -/

/-- A word that reads signed as a non-negative number is not below zero, so the wrap keeps the word itself. -/
theorem wrap_word (N x : BitVec 32) (h0 : 0 ≤ x.toInt) :
    Scalar.select (IntOp.cmpi .slt x 0#32) (IntOp.addi x N) x = x := by
  have hc : IntOp.cmpi .slt x 0#32 = 0#1 := by
    show BitVec.ofBool (x.slt 0#32) = 0#1
    have hs : x.slt 0#32 = false := by
      have hz : (0#32 : BitVec 32).toInt = 0 := by decide
      simp only [BitVec.slt, hz, decide_eq_false_iff_not, not_lt]
      exact h0
    rw [hs]; rfl
  rw [hc]; exact select_zero _ _

/-- A word that reads signed as a number in [0, M] passes both comparisons of the range test. -/
theorem range_word (M x : BitVec 32) (h0 : 0 ≤ x.toInt) (h1 : x.toInt ≤ M.toInt) :
    IntOp.andi (IntOp.cmpi .sge x 0#32) (IntOp.cmpi .sle x M) = 1#1 := by
  have hz : (0#32 : BitVec 32).toInt = 0 := by decide
  have hge : IntOp.cmpi .sge x 0#32 = 1#1 := by
    show BitVec.ofBool ((0#32 : BitVec 32).sle x) = 1#1
    have hs : (0#32 : BitVec 32).sle x = true := by
      simp only [BitVec.sle, hz, decide_eq_true_eq]; exact h0
    rw [hs]; rfl
  have hle : IntOp.cmpi .sle x M = 1#1 := by
    show BitVec.ofBool (x.sle M) = 1#1
    have hs : x.sle M = true := by
      simp only [BitVec.sle, decide_eq_true_eq]; exact h1
    rw [hs]; rfl
  rw [hge, hle]; rfl

/-! ## The and-reduction over the unit axis of a column, and a vector laid along an axis -/

/-- A fold of `and` from 1 over bits that are all 1 is 1. -/
theorem fold_andi_one {ι : Type} (S : Finset ι) (f : ι → BitVec 1) (h : ∀ i ∈ S, f i = 1#1) :
    S.fold IntOp.andi 1#1 f = 1#1 := by
  induction S using Finset.cons_induction with
  | empty => rfl
  | cons a S ha ih =>
    rw [Finset.fold_cons, h a (Finset.mem_cons_self a S), ih (fun i hi => h i (Finset.mem_cons.2 (Or.inr hi)))]
    rfl

/-- The `and`-reduction of an [n × 1] column of bits over its unit axis, from the initial bit 1, is 1 at every row whose
    bit is 1. -/
theorem reduce_andi_col1 {n : Nat} {u : Shape} (x : IVec ⟨2, ![n, 1]⟩ 1) (init : u.Idx → BitVec 1)
    (h : (⟨2, ![n, 1]⟩ : Shape).ReducesTo [1] ⟨1, ![n]⟩) (hu : 0 < u.numel) (hinit : init (Shape.Idx.first hu) = 1#1)
    (e : Fin n) (hx : x (ixP e) = 1#1) :
    Host.reduce IntOp.andi x init h hu (ix1 e) = 1#1 := by
  rw [Host.reduce_eq_fold, hinit]
  refine fold_andi_one _ _ fun i hi => ?_
  have hd : h.drop i = ix1 e := (Finset.mem_filter.1 hi).2
  have hv : (h.drop i 0 : Nat) = i 0 := Shape.ReducesTo.drop_apply_val h i 0
  have h0 : (i 0).val = e.val := by rw [← hv, hd]; rfl
  have hi' : i = ixP e := by
    funext a
    match a with
    | ⟨0, _⟩ => exact Fin.ext h0
    | ⟨1, _⟩ => exact Subsingleton.elim (α := Fin 1) _ _
  rw [hi']; exact hx

/-- A vector laid along the SECOND axis of a [D × n] rectangle (dims [1]) reads, at (j, e), its entry `e`. -/
theorem bcast_along1 {α : Type} {D n : Nat} (hn : n ≠ 1) (h : (⟨1, ![n]⟩ : Shape).BroadcastsInDim ⟨2, ![D, n]⟩ ![1])
    (v : (⟨1, ![n]⟩ : Shape).Idx → α) (j : Fin D) (e : Fin n) :
    broadcastInDim ⟨2, ![D, n]⟩ ![1] h v (ix2 j e) = v (ix1 e) := by
  refine broadcastInDim_apply _ h v (ix2 j e) (ix1 e) fun a => ?_
  match a with
  | ⟨0, _⟩ =>
    show e.val = if n = 1 then 0 else e.val
    rw [if_neg hn]

/-- A vector laid along the FIRST axis of an [n × D] rectangle (dims [0]) reads, at (e, f), its entry `e`. -/
theorem bcast_along0 {α : Type} {D n : Nat} (hn : n ≠ 1) (h : (⟨1, ![n]⟩ : Shape).BroadcastsInDim ⟨2, ![n, D]⟩ ![0])
    (v : (⟨1, ![n]⟩ : Shape).Idx → α) (e : Fin n) (f : Fin D) :
    broadcastInDim ⟨2, ![n, D]⟩ ![0] h v (ix2 e f) = v (ix1 e) := by
  refine broadcastInDim_apply _ h v (ix2 e f) (ix1 e) fun a => ?_
  match a with
  | ⟨0, _⟩ =>
    show e.val = if n = 1 then 0 else e.val
    rw [if_neg hn]

end Idealize.ShloMosaic.RowOps
-- ==== Proof.Spec.lean ====
/-
  THE LOW-RANK EMBEDDING LOOKUP, as one function of the argument arrays. The table is the product of a
  128000 × 16 factor A and a 16 × 1024 factor B; token (b, s) carries an index word idx(b, s), and the result
  at (b, s, j) is entry j of row idx(b, s) of the product: the sum over the rank coordinate k of
  A(row, k) · B(k, j). Gathering rows of A first and multiplying afterwards, or multiplying first and gathering
  rows of the product afterwards, give this same sum term by term: no algebraic law is needed, only that both
  programs read the same row.

  The row an index word names is jnp.take's: a word that reads signed below zero is wrapped by the table's
  height 128000, the wrapped word is tested against [0, 127999], and the gather itself clamps its start into
  the table. For a word that reads signed in [-128000, 128000) the wrapped word reads in [0, 127999], so the
  test holds and the clamp is idle (`wrapWord_range`, `okWord_eq_one`). Outside that range jnp.take fills
  the row with its NaN pattern, and the two programs differ there; the certificate's precondition states the
  range, and `range_of_all` reads it back from the printed predicate.
-/
import Idealize.ShloMosaic.Lib.ValueIdx
import Idealize.ShloMosaic.Lib.ReduceAll
import Idealize.ShloMosaic.PureOps.Ideal.Laws
import proofs.«154715_j27685359190360_1_alg».proof.Proof.LibColumnTake

open scoped BigOperators

noncomputable section

namespace Cert.Lookup

open Idealize.ShloMosaic Idealize.ShloMosaic.ValueIdx

/-- jnp.take's wrap of an index word by the table's height: a word that reads signed below zero has 128000
    added to it, any other word is kept. -/
def wrapWord (x : BitVec 32) : BitVec 32 :=
  Scalar.select (IntOp.cmpi .slt x 0#32) (IntOp.addi x 128000#32) x

/-- jnp.take's range test of the wrapped word: it reads signed in [0, 127999]. -/
def okWord (x : BitVec 32) : BitVec 1 :=
  IntOp.andi (IntOp.cmpi .sge (wrapWord x) 0#32) (IntOp.cmpi .sle (wrapWord x) 127999#32)

/-- The table row an index word names: the wrapped word read signed and clamped into the table. -/
def rowOf (x : BitVec 32) : Fin 128000 :=
  ⟨min (wrapWord x).toInt.toNat 127999, by omega⟩

/-- A word that reads signed in [-128000, 128000) wraps to a word that reads signed in [0, 127999]: a
    non-negative one is kept, a negative one has 128000 added without overflow. -/
theorem wrapWord_range (x : BitVec 32) (h0 : -128000 ≤ x.toInt) (h1 : x.toInt < 128000) :
    0 ≤ (wrapWord x).toInt ∧ (wrapWord x).toInt ≤ 127999 := by
  by_cases hx : 0 ≤ x.toInt
  · have hw : wrapWord x = x := RowOps.wrap_word 128000#32 x hx
    rw [hw]; omega
  · have hz : (0#32 : BitVec 32).toInt = 0 := by decide
    have hc : IntOp.cmpi .slt x 0#32 = 1#1 := by
      show BitVec.ofBool (x.slt 0#32) = 1#1
      have hs : x.slt 0#32 = true := by
        simp only [BitVec.slt, hz, decide_eq_true_eq]; omega
      rw [hs]; rfl
    have hw : wrapWord x = x + 128000#32 := by
      unfold wrapWord
      rw [hc, select_one]; rfl
    have hN : (128000#32 : BitVec 32).toInt = 128000 := by decide
    have hadd : (x + 128000#32).toInt = x.toInt + 128000 := by
      rw [BitVec.toInt_add, hN]
      unfold Int.bmod
      simp only []
      split <;> omega
    rw [hw, hadd]; omega

/-- For a word that reads signed in [-128000, 128000) the range test holds. -/
theorem okWord_eq_one (x : BitVec 32) (h0 : -128000 ≤ x.toInt) (h1 : x.toInt < 128000) : okWord x = 1#1 := by
  obtain ⟨ha, hb⟩ := wrapWord_range x h0 h1
  have hM : (127999#32 : BitVec 32).toInt = 127999 := by decide
  exact RowOps.range_word 127999#32 (wrapWord x) ha (by rw [hM]; exact hb)

/-! ## The result, index by index -/

/-- THE LOOKUP: at token (b, s) and feature j, the sum over the rank coordinate k of A(row, k) · B(k, j), the row
    being the one token (b, s)'s index word names. -/
def lookup (idx : IVec ⟨2, ![32, 2048]⟩ 32) (A : FVec Ideal ⟨2, ![128000, 16]⟩ .f32) (B : FVec Ideal ⟨2, ![16, 1024]⟩ .f32) :
    FVec Ideal ⟨3, ![32, 2048, 1024]⟩ .f32 :=
  fun i => ∑ k : Fin 16, A (ix2 (rowOf (idx (ix2 (i 0) (i 1)))) k) * B (ix2 k (i 2))

theorem lookup_apply (idx : IVec ⟨2, ![32, 2048]⟩ 32) (A : FVec Ideal ⟨2, ![128000, 16]⟩ .f32) (B : FVec Ideal ⟨2, ![16, 1024]⟩ .f32)
    (b : Fin 32) (s : Fin 2048) (j : Fin 1024) :
    lookup idx A B (ix3 b s j) = ∑ k : Fin 16, A (ix2 (rowOf (idx (ix2 b s))) k) * B (ix2 k j) := rfl

/-- Every index word reads signed in [-128000, 128000). -/
def InRange (idx : IVec ⟨2, ![32, 2048]⟩ 32) : Prop :=
  ∀ (b : Fin 32) (s : Fin 2048), -128000 ≤ (idx (ix2 b s)).toInt ∧ (idx (ix2 b s)).toInt < 128000

/-! ## The range, read back from a printed `jnp.all` -/

/-- The two comparisons of the range predicate, read back at one word: `idx ≥ -128000` and `idx < 128000`, signed. -/
theorem range_of_word (x : BitVec 32)
    (h : IntOp.andi (IntOp.cmpi .sge x 4294839296#32) (IntOp.cmpi .slt x 128000#32) = 1#1) :
    -128000 ≤ x.toInt ∧ x.toInt < 128000 := by
  obtain ⟨hge, hlt⟩ := IntOp.andi_eq_one.1 h
  have hL : (4294839296#32 : BitVec 32).toInt = -128000 := by decide
  have hN : (128000#32 : BitVec 32).toInt = 128000 := by decide
  constructor
  · have h1 : (4294839296#32 : BitVec 32).sle x = true :=
      (StableHlo.Predicate.ofBool_eq_one_iff _).1 hge
    simp only [BitVec.sle, hL, decide_eq_true_eq] at h1
    exact h1
  · have h1 : x.slt 128000#32 = true :=
      (StableHlo.Predicate.ofBool_eq_one_iff _).1 hlt
    simp only [BitVec.slt, hN, decide_eq_true_eq] at h1
    exact h1

end Cert.Lookup

end
-- ==== Proof.PreRange.lean ====
/-
  THE PRECONDITION'S RANGE CONJUNCT, read back. The printed precondition is the conjunction of three `jnp.all`s: the
  two factors finite, and every index word at least -128000 and below 128000 (signed). When it evaluates to 1, the
  third and-reduction is 1, so each of its elements is 1, and each element is the pair of comparisons of one index
  word: every index word reads signed in [-128000, 128000).
-/
import proofs.«154715_j27685359190360_1_alg».proof.Pre_finite_inputs
import proofs.«154715_j27685359190360_1_alg».proof.Proof.Spec
import Idealize.ShloMosaic.Lib.ReduceAll
import Idealize.ShloMosaic.Lib.ValueIdx

noncomputable section

namespace Cert.Lookup

open Idealize.ShloMosaic Idealize.ShloMosaic.ValueIdx

instance : Subsingleton (⟨0, ![]⟩ : Shape).Idx := ⟨fun _ _ => funext fun d => d.elim0⟩

/-- Where the printed precondition holds, every index word is in jnp.take's range of the table. -/
theorem inRange_of_pre [Cert.Pre_finite_inputs.Facts] {F : FTy → Type} [FloatOps F]
    (idx : IVec ⟨2, ![32, 2048]⟩ 32) (A : FVec F ⟨2, ![128000, 16]⟩ .f32) (B : FVec F ⟨2, ![16, 1024]⟩ .f32)
    (h : Cert.Pre_finite_inputs.fn (F := F) idx A B = fun _ => 1#1) : InRange idx := by
  intro b s
  have h0 := congrFun h ix0
  dsimp only [Cert.Pre_finite_inputs.fn] at h0
  obtain ⟨-, h14⟩ := IntOp.andi_eq_one.1 h0
  have hall := Host.reduce_andi_all _ _ _ _ ix0 h14 (ix2 b s)
  exact range_of_word _ hall

end Cert.Lookup

end
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.BodyValue.lean ====
/-
  THE KERNEL BODY'S STORE, at an entry. At one grid point the body loads a 4096 × 16 block x of gathered rows and
  the whole 16 × 1024 factor y, narrows both to bf16 (at the ideal values a change of format is the identity),
  multiplies them into the zero accumulator and stores the 4096 × 1024 product: at entry (p, q) the stored value is
  the sum over the rank coordinate k of x(p, k) · y(k, q).
-/
import proofs.«154715_j27685359190360_1_alg».proof.Proof.Gen.KernelIdeal.Skeleton
import proofs.«154715_j27685359190360_1_alg».proof.Proof.LibPlainMatmul
import Idealize.ShloMosaic.Lib.Pipeline.Value
import Idealize.ShloMosaic.Lib.ValueIdx
import Idealize.ShloMosaic.PureOps.Ideal.Laws

open scoped BigOperators

noncomputable section

namespace Cert.KernelIdeal.BodyValue

open Idealize.ShloMosaic Idealize.ShloMosaic.ValueIdx Cert.KernelIdeal Cert.KernelIdeal.Gen

/-- The stored product at entry (p, q): row p of the block of gathered rows against column q of the factor. -/
theorem pay_apply (x : Vec Ideal S4096x16 .f32) (y : Vec Ideal S16x1024 .f32) (p : Fin 4096) (q : Fin 1024) :
    k0_pay1 (F := Ideal) x y (ix2 p q) = ∑ k : Fin 16, x (ix2 p k) * y (ix2 k q) := by
  unfold k0_pay1
  refine (PlainMatmul.matmul_zero_apply dot_S4096x16_S16x1024_S4096x1024_1_0_0_1_n_n
    Facts₀.dot_S4096x16_S16x1024_S4096x1024_1_0_0_1_n_n_wf rfl none _ _ p q).trans ?_
  refine Finset.sum_congr rfl fun k _ => ?_
  rw [truncf_apply, truncf_apply, shapeCast_self]

end Cert.KernelIdeal.BodyValue

end
-- ==== Proof.KernelArray.lean ====
/-
  THE REGION'S OUTPUT ARRAY. The grid has 16 points; point t stages rows 4096·t … 4096·t + 4095 of the gathered rows
  R (65536 × 16), the whole factor Y (16 × 1024) at every point, and writes back rows 4096·t … 4096·t + 4095 of the
  65536 × 1024 output. The body's store at a point is the product of the point's two blocks, so what point t writes
  back is block t of ONE whole-array function, `rowsTimes R Y`: entry (n, j) the sum over the rank coordinate k of
  R(n, k) · Y(k, j). The 16 row blocks tile the output, so after the run the array holds that function.
-/
import proofs.«154715_j27685359190360_1_alg».proof.Proof.Gen.KernelIdeal.Frame
import proofs.«154715_j27685359190360_1_alg».proof.Proof.BodyValue
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.ArrayValue

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The 65536 × 16 rows times the 16 × 1024 factor, entry by entry. -/
def rowsTimes (R : FVec Ideal S65536x16 .f32) (Y : FVec Ideal S16x1024 .f32) : FVec Ideal S65536x1024 .f32 :=
  fun i => ∑ k : Fin 16, R (ix2 (i 0) k) * Y (ix2 k (i 1))

variable (m : (ℓ : Loc nD τ sig) → Buf (Elt Ideal) ℓ)

/-- The gathered rows, as the region finds them. -/
abbrev rowsArr (c : Dev nD) : FVec Ideal S65536x16 .f32 := V m c main_v1
/-- The factor, as the region finds it. -/
abbrev factorArr (c : Dev nD) : FVec Ideal S16x1024 .f32 := V m c main_arg2

theorem origin_zero : (![0, 0] : Fin 2 → Nat) = fun _ => 0 := funext fun a => by fin_cases a <;> rfl

/-- The printed index maps over the grid: the rows' window and the output's window sit at row block t, column
    block 0; the factor's window at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the product of the gathered rows and the factor, both as the region
    finds them. -/
theorem written_back (c : Dev nD) (t : Fin cfg0.N) :
    (dats m 0 c).flushed 2 t
      = ((cfg0.win 2).blk t).view.read (Elt Ideal) (rowsTimes (rowsArr m c) (factorArr m c)) := by
  show (cfg0.win 2).cut (grid0.coords t) ((dats m 0 c).after 2 t) = _
  rw [after0_2]
  unfold out0_2
  rw [View.canon_unit_zero origin_zero]
  simp only [View.ld_unit_zero (S := S4096x16) origin_zero, View.ld_unit_zero (S := S16x1024) origin_zero]
  obtain ⟨e0, e1, e2, e3, e4, e5⟩ := block_indices t
  refine funext fun (j : S4096x1024.Idx) => ?_
  show k0_pay1 (F := Ideal) (iblk m c 0 t) (iblk m c 1 t) j
    = rowsTimes (rowsArr m c) (factorArr m c) (((cfg0.win 2).blk t).view.emb j)
  have hj : (j : S4096x1024.Idx) = ix2 (j 0) (j 1) := eq_ix2 j
  rw [hj]
  refine (BodyValue.pay_apply (iblk m c 0 t) (iblk m c 1 t) (j 0) (j 1)).trans ?_
  refine Finset.sum_congr rfl fun k _ => ?_
  have h0 : ((cfg0.win 0).blk t).view.emb (ix2 (j 0) k : S4096x16.Idx)
      = (ix2 ((((cfg0.win 2).blk t).view.emb (ix2 (j 0) (j 1) : S4096x1024.Idx)) 0) k : S65536x16.Idx) := by
    funext a; apply Fin.ext
    match a with
    | ⟨0, _⟩ => show win0_0.index t (0 : Fin 2) * 4096 + 1 * (j 0).val = win0_2.index t (0 : Fin 2) * 4096 + 1 * (j 0).val; omega
    | ⟨1, _⟩ => show win0_0.index t (1 : Fin 2) * 16 + 1 * k.val = k.val; omega
  have h1 : ((cfg0.win 1).blk t).view.emb (ix2 k (j 1) : S16x1024.Idx)
      = (ix2 k ((((cfg0.win 2).blk t).view.emb (ix2 (j 0) (j 1) : S4096x1024.Idx)) 1) : S16x1024.Idx) := by
    funext a; apply Fin.ext
    match a with
    | ⟨0, _⟩ => show win0_1.index t (0 : Fin 2) * 16 + 1 * k.val = k.val; omega
    | ⟨1, _⟩ => show win0_1.index t (1 : Fin 2) * 1024 + 1 * (j 1).val = win0_2.index t (1 : Fin 2) * 1024 + 1 * (j 1).val; omega
  show rowsArr m c (((cfg0.win 0).blk t).view.emb (ix2 (j 0) k : S4096x16.Idx))
      * factorArr m c (((cfg0.win 1).blk t).view.emb (ix2 k (j 1) : S16x1024.Idx)) = _
  rw [h0, h1]
  rfl

/-- An index of the output is in point t's block iff each coordinate is in the block's range on its axis. -/
theorem mem_block (t : Fin cfg0.N) (i : S65536x1024.Idx) :
    i ∈ ((cfg0.win 2).blk t).view.set ↔ ∀ a : Fin 2, win0_2.index t a * S4096x1024.size a ≤ (i a).val
      ∧ (i a).val < win0_2.index t a * S4096x1024.size a + S4096x1024.size a := by
  show i ∈ ((View.whole main_v2).slice (win0_2.rect t)).set ↔ _
  rw [View.set_slice_whole, Rect.mem_set_unit]
  exact Iff.rfl

/-- The row blocks tile the output: row n lies in the block of point n / 4096. -/
theorem tiled (i : S65536x1024.Idx) :
    ∃ t : Fin cfg0.N, (cfg0.win 2).flush t = true ∧ i ∈ ((cfg0.win 2).blk t).view.set := by
  have hi0 : (i 0).val < 65536 := (i 0).isLt
  have hi1 : (i 1).val < 1024 := (i 1).isLt
  have hN : cfg0.N = 16 := N_0
  let t : Fin cfg0.N := ⟨(i 0).val / 4096, by rw [hN]; omega⟩
  obtain ⟨-, -, -, -, e4, e5⟩ := block_indices t
  have ht : t.val = (i 0).val / 4096 := rfl
  refine ⟨t, flush0_2 t, ?_⟩
  rw [mem_block]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 1024 ≤ (i 1).val ∧ (i 1).val < win0_2.index t (1 : Fin 2) * 1024 + 1024; omega

/-- THE OUTPUT ARRAY after the run: the product of the gathered rows and the factor. -/
theorem output_array (c : Dev nD) :
    (dats m 0 c).arrAt 2 cfg0.N = rowsTimes (rowsArr m c) (factorArr m c) :=
  (dats m 0 c).arrAt_eq_of_cover 2 _ (fun t _ => written_back m c t) tiled

end Cert.KernelIdeal.ArrayValue

end
-- ==== Proof.LibMergeAxes.lean ====
/-
  THE FIRST TWO AXES OF A RANK-3 ARRAY MERGED, AND SPLIT AGAIN, read at an index. An [a, b, c] array reshaped to
  [a·b, c] reads, at (p·b + q, r), the operand at (p, q, r); an [a·b, c] array reshaped to [a, b, c] reads, at (p, q, r),
  the operand at (p·b + q, r): both indices have the row-major position (p·b + q)·c + r.
-/
import Idealize.ShloMosaic.Lib.Pipeline.Value
import Idealize.ShloMosaic.Lib.ValueIdx

noncomputable section

namespace Cert.LibMergeAxes

open Idealize.ShloMosaic Idealize.ShloMosaic.ValueIdx

variable {α : Type}

/-- The merged coordinate of (p, q). -/
def merged {a b n : ℕ} (hn : n = a * b) (p : Fin a) (q : Fin b) : Fin n :=
  ⟨p.val * b + q.val, by
    have hp := p.isLt; have hq := q.isLt
    calc p.val * b + q.val < p.val * b + b := by omega
      _ = (p.val + 1) * b := by ring
      _ ≤ a * b := Nat.mul_le_mul_right b hp
      _ = n := hn.symm⟩

/-- An [a, b, c] array cast to [n, c], n = a·b, reads at (p·b + q, r) the operand at (p, q, r). -/
theorem shapeCast_merge_apply {a b c n : ℕ} (hn : n = a * b) (x : (⟨3, ![a, b, c]⟩ : Shape).Idx → α)
    (h : (⟨3, ![a, b, c]⟩ : Shape).ShapeCasts ⟨2, ![n, c]⟩) (p : Fin a) (q : Fin b) (r : Fin c) :
    shapeCast ⟨2, ![n, c]⟩ x h (ix2 (merged hn p q) r) = x (ix3 p q r) :=
  shapeCast_apply x h _ _ (by
    rw [Shape.rowMajor_val_two, Shape.rowMajor_val_three]
    rfl)

/-- An [n, c] array, n = a·b, cast to [a, b, c] reads at (p, q, r) the operand at (p·b + q, r). -/
theorem shapeCast_split_apply {a b c n : ℕ} (hn : n = a * b) (y : (⟨2, ![n, c]⟩ : Shape).Idx → α)
    (h : (⟨2, ![n, c]⟩ : Shape).ShapeCasts ⟨3, ![a, b, c]⟩) (p : Fin a) (q : Fin b) (r : Fin c) :
    shapeCast ⟨3, ![a, b, c]⟩ y h (ix3 p q r) = y (ix2 (merged hn p q) r) :=
  shapeCast_apply y h _ _ (by
    rw [Shape.rowMajor_val_two, Shape.rowMajor_val_three]
    rfl)

end Cert.LibMergeAxes

end
-- ==== Proof.KernelHost.lean ====
/-
  THE GATHERED ROWS the kernel region is launched on. Before the region the program flattens the [32, 2048] index
  words to a vector of 65536, and jnp.take reads from the 128000 × 16 factor A one row per token: the word is wrapped
  by the table's height if it reads below zero, laid out as a column, tested against [0, 127999] (an and-reduction
  over the column's unit axis), the row gathered at the wrapped word clamped into the table, and the row kept where
  the test holds (the NaN pattern elsewhere). `takeRows` is that chain of operations as one term of the two
  argument arrays; `region_rows` says the region finds it in its first window's array; and `takeRows_apply`
  reads it at token (b, s) — flat position b·2048 + s — and rank coordinate k: when every index word reads signed
  in [-128000, 128000) it is A(row, k), the row the one the token's word names.
-/
import proofs.«154715_j27685359190360_1_alg».proof.Proof.Gen.KernelIdeal.Frame
import proofs.«154715_j27685359190360_1_alg».proof.Proof.Spec
import proofs.«154715_j27685359190360_1_alg».proof.Proof.LibColumnTake
import proofs.«154715_j27685359190360_1_alg».proof.Proof.LibMergeAxes
import Idealize.ShloMosaic.Lib.StableHlo.Run
import Idealize.ShloMosaic.Lib.StableHlo.Predicate
import Idealize.ShloMosaic.Lib.Pipeline.Value
import Idealize.ShloMosaic.PureOps.Ideal

noncomputable section

namespace Cert.KernelIdeal.HostValue

open Idealize.ShloMosaic Idealize.ShloMosaic.TcCoe Idealize.SL.Sem Idealize.ShloMosaic.ValueIdx
open Idealize.ShloMosaic.StableHlo.Predicate
open Cert.KernelIdeal Cert.KernelIdeal.Gen

variable {F : FTy → Type} [FloatOps F]

/-- The flattened index words. -/
def flatIdx (idx : IVec S32x2048 32) : IVec S65536 32 := shapeCast S65536 idx Facts₀.shapeCasts_S32x2048_S65536

/-- The wrapped index words: 128000 added where the word reads below zero. -/
def wrapped (idx : IVec S32x2048 32) : IVec S65536 32 :=
  select (cmpi .slt (flatIdx idx) (broadcastInDim S65536 ![] Facts₀.bcast_S_S65536 (constantI S_ 32 0#32)))
    (addi (flatIdx idx) (broadcastInDim S65536 ![] Facts₀.bcast_S_S65536 (constantI S_ 32 128000#32))) (flatIdx idx)

/-- The wrapped words as a column of start indices. -/
def startCol (idx : IVec S32x2048 32) : IVec S65536x1 32 :=
  broadcastInDim S65536x1 ![0] Facts₀.bcast_S65536_S65536x1_0 (wrapped idx)

/-- The range test of the column, word by word. -/
def okCol (idx : IVec S32x2048 32) : IVec S65536x1 1 :=
  andi (cmpi .sge (startCol idx) (broadcastInDim S65536x1 ![] Facts₀.bcast_S_S65536x1 (constantI S_ 32 0#32)))
    (cmpi .sle (startCol idx) (broadcastInDim S65536x1 ![0, 1] Facts₀.bcast_S1x1_S65536x1_0_1
      (broadcastInDim S1x1 ![1] Facts₀.bcast_S1_S1x1_1 (constantI S1 32 127999#32))))

/-- The test and-reduced over the column's unit axis: one bit per token. -/
def okRow (idx : IVec S32x2048 32) : IVec S65536 1 :=
  Host.reduce IntOp.andi (okCol idx) (constantI S_ 1 1#1) Facts₀.reducesTo_S65536x1_S65536_d1 Facts₀.h_S_

/-- jnp.take of the factor's rows at the flattened index words, in fill mode. -/
def takeRows (idx : IVec S32x2048 32) (A : FVec F S128000x16 .f32) : FVec F S65536x16 .f32 :=
  select (broadcastInDim S65536x16 ![0] Facts₀.bcast_S65536_S65536x16_0 (okRow idx))
    (Host.gather gather_S128000x16_S65536x1_S65536x16_1_0_n_n_0_1_116 A (startCol idx))
    (broadcastInDim S65536x16 ![] Facts₀.bcast_S_S65536x16 (constant S_ .f32 0x7FC00000#32))

variable (m : (ℓ : Loc nD τ sig) → Buf (Elt F) ℓ)

attribute [local irreducible] Host.reduce Host.gather in
set_option maxRecDepth 16384 in
set_option maxHeartbeats 2000000 in
/-- The region's first window reads the array the host operations before it left: the take of A's rows. -/
theorem region_rows (c : Dev nD) :
    (V m c main_v1 : FVec F S65536x16 .f32)
      = takeRows (m ((c : Thread nD τ).loc main_arg0)) (m ((c : Thread nD τ).loc main_arg1)) := by
  dsimp only [V, V0]
  simp only [hostOps0, hostOps0_1, List.flatten_cons, List.flatten_nil, List.append_nil, List.cons_append, List.nil_append]
  after_results_simp
  rfl

/-! ## The take at a token -/

/-- The flat position of token (b, s). -/
abbrev tok (b : Fin 32) (s : Fin 2048) : Fin 65536 := Cert.LibMergeAxes.merged (n := 65536) (by norm_num) b s

/-- The flattened words at token (b, s): the token's own word. -/
theorem flatIdx_apply (idx : IVec S32x2048 32) (b : Fin 32) (s : Fin 2048) :
    flatIdx idx (ix1 (tok b s)) = idx (ix2 b s) :=
  shapeCast_apply idx Facts₀.shapeCasts_S32x2048_S65536 _ _ (by
    rw [Shape.rowMajor_val_one, Shape.rowMajor_val_two]
    rfl)

/-- The wrapped words at token (b, s): the wrap of the token's word. -/
theorem wrapped_apply (idx : IVec S32x2048 32) (b : Fin 32) (s : Fin 2048) :
    wrapped idx (ix1 (tok b s)) = Cert.Lookup.wrapWord (idx (ix2 b s)) := by
  show Scalar.select (IntOp.cmpi .slt (flatIdx idx (ix1 (tok b s))) 0#32)
    (IntOp.addi (flatIdx idx (ix1 (tok b s))) 128000#32) (flatIdx idx (ix1 (tok b s))) = _
  rw [flatIdx_apply]
  rfl

/-- The column of start indices at token (b, s). -/
theorem startCol_apply (idx : IVec S32x2048 32) (b : Fin 32) (s : Fin 2048) :
    startCol idx (ixP (tok b s)) = Cert.Lookup.wrapWord (idx (ix2 b s)) := by
  unfold startCol
  rw [bcast_col1, RowOps.ofFin_eq_ix1, wrapped_apply]

/-- The range test at token (b, s) is jnp.take's test of the token's wrapped word. -/
theorem okCol_apply (idx : IVec S32x2048 32) (b : Fin 32) (s : Fin 2048) :
    okCol idx (ixP (tok b s)) = Cert.Lookup.okWord (idx (ix2 b s)) := by
  show IntOp.andi (IntOp.cmpi .sge (startCol idx (ixP (tok b s))) 0#32)
    (IntOp.cmpi .sle (startCol idx (ixP (tok b s))) 127999#32) = _
  rw [startCol_apply]
  rfl

/-- THE TAKE AT A TOKEN. With every index word in range, the gathered array holds at token (b, s) and rank
    coordinate k the factor's entry (row, k), the row the one the token's word names. -/
theorem takeRows_apply (idx : IVec S32x2048 32) (A : FVec F S128000x16 .f32) (h : Cert.Lookup.InRange idx)
    (b : Fin 32) (s : Fin 2048) (k : Fin 16) :
    takeRows idx A (ix2 (tok b s) k) = A (ix2 (Cert.Lookup.rowOf (idx (ix2 b s))) k) := by
  have hok : okRow idx (ix1 (tok b s)) = 1#1 :=
    RowOps.reduce_andi_col1 (okCol idx) _ Facts₀.reducesTo_S65536x1_S65536_d1 Facts₀.h_S_ rfl (tok b s)
      (by rw [okCol_apply]; exact Cert.Lookup.okWord_eq_one _ (h b s).1 (h b s).2)
  have hrow : RowOps.clampRow 128000 (by norm_num) (startCol idx) (tok b s) = Cert.Lookup.rowOf (idx (ix2 b s)) := by
    apply Fin.ext
    show min (startCol idx (ixP (tok b s))).toInt.toNat (128000 - 1) = min (Cert.Lookup.wrapWord (idx (ix2 b s))).toInt.toNat 127999
    rw [startCol_apply]
  unfold takeRows
  rw [select_apply, RowOps.bcast_along0 (by norm_num), hok, select_one,
    RowOps.gather_rows _ rfl rfl rfl rfl rfl rfl A (startCol idx) (tok b s) k (by norm_num), hrow]

end Cert.KernelIdeal.HostValue

end
-- ==== Proof.KernelRun.lean ====
/-
  THE KERNEL PROGRAM'S RESULT. After the region the program re-lays the 65536 × 1024 output as [32, 2048, 1024]:
  entry (b, s, j) is the output's entry (b·2048 + s, j), the sum over the rank coordinate k of the gathered row of
  token (b, s) at k times the factor's entry (k, j). With every index word in range the gathered row is the row
  of A the token's word names, so the result is the lookup of the specification.
-/
import proofs.«154715_j27685359190360_1_alg».proof.Proof.Gen.KernelIdeal.Frame
import proofs.«154715_j27685359190360_1_alg».proof.Proof.KernelArray
import proofs.«154715_j27685359190360_1_alg».proof.Proof.KernelHost
import proofs.«154715_j27685359190360_1_alg».proof.Proof.Spec
import proofs.«154715_j27685359190360_1_alg».proof.Proof.LibMergeAxes
import Idealize.ShloMosaic.Lib.StableHlo.Run
import Idealize.ShloMosaic.Lib.Pipeline.Value

set_option maxRecDepth 16384

open scoped BigOperators

noncomputable section

namespace Cert.KernelIdeal.RunValue

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (m : (ℓ : Loc nD τ sig) → Buf (Elt Ideal) ℓ) (ρ : Dev nD → PrngReg)

/-- The result buffer after the lines that follow the region: the region's output array, re-laid. -/
theorem result_relaid (c : Dev nD) :
    (Pipeline.afterTail₀ cfgs (dats m) 0 (V0 m) [hostOps1] c main_v3 : FVec Ideal S32x2048x1024 .f32)
      = shapeCast S32x2048x1024 (ArrayValue.rowsTimes (ArrayValue.rowsArr m c) (ArrayValue.factorArr m c))
          Facts₀.shapeCasts_S65536x1024_S32x2048x1024 := by
  unfold Pipeline.afterTail₀
  show StableHlo.after hostOps1 _ (Proc.devRef .tc main_v3) = _
  after_results
  rw [(Pipeline.withArrays_arr spec0 launch0.win.arr_inj c _ _ 2).trans (ArrayValue.output_array m c)]
  rfl

/-- The gathered rows the region finds are the take of A's rows. -/
theorem rowsArr_eq (c : Dev nD) :
    ArrayValue.rowsArr m c
      = HostValue.takeRows (m ((c : Thread nD τ).loc main_arg0)) (m ((c : Thread nD τ).loc main_arg1)) :=
  HostValue.region_rows m c

/-- The factor the region finds is the argument. -/
theorem factorArr_eq (c : Dev nD) : ArrayValue.factorArr m c = m ((c : Thread nD τ).loc main_arg2) :=
  V_main_arg2 m c

/-- THE RESULT, with every index word in range: the lookup. -/
theorem result_lookup (c : Dev nD) (h : Cert.Lookup.InRange (m ((c : Thread nD τ).loc main_arg0))) :
    (Pipeline.afterTail₀ cfgs (dats m) 0 (V0 m) [hostOps1] c main_v3 : FVec Ideal S32x2048x1024 .f32)
      = Cert.Lookup.lookup (m ((c : Thread nD τ).loc main_arg0)) (m ((c : Thread nD τ).loc main_arg1))
          (m ((c : Thread nD τ).loc main_arg2)) := by
  rw [result_relaid]
  funext i
  obtain ⟨b, s, j, rfl⟩ : ∃ (b : Fin 32) (s : Fin 2048) (j : Fin 1024), i = ix3 b s j := ⟨i 0, i 1, i 2, eq_ix3 i⟩
  rw [Cert.LibMergeAxes.shapeCast_split_apply (n := 65536) (by norm_num) _ _ b s j, Cert.Lookup.lookup_apply]
  show ∑ k : Fin 16, ArrayValue.rowsArr m c (ix2 (HostValue.tok b s) k) * ArrayValue.factorArr m c (ix2 k j) = _
  refine Finset.sum_congr rfl fun k _ => ?_
  rw [rowsArr_eq, HostValue.takeRows_apply _ _ h, factorArr_eq]

/-- THE RUN, read: with every index word in range, every weakly fair execution of the program ends with the result
    buffer at the lookup of the arguments, and the arguments as they were. -/
theorem run (hr : ∀ c : Dev nD, Cert.Lookup.InRange (m ((c : Thread nD τ).loc main_arg0))) :
    θ_run defs (onTc (τ := τ) (main (F := Ideal))) ⟨m, fun _ => 0, ρ⟩ (fun r => ∀ c : Dev nD,
      r.2.mem ((c.tc : Thread nD τ).loc main_v3)
        = Cert.Lookup.lookup (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans (result_lookup m c (hr c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.RunValue

end
-- ==== Proof.RefRun.lean ====
/-
  THE REFERENCE'S RUN. The reference is a straight line of host operations: the product of the two factors
  (a dot_general of the 128000 × 16 factor by the 16 × 1024 factor), then jnp.take of the product's rows by the
  index array, which the module states as a call of a function of twenty-three operations, one of them a call of a
  one-line select. A call executes the callee's body on the operands, so @main is the list of the twenty-four
  operations in order, the callees' lines written at their call sites over the buffers of that call.

  jnp.take's twenty-three operations, on index words idx(b, s): the zero and its broadcast; the comparison
  idx < 0; the height 128000 and its broadcast; idx + 128000; the select between the two (the wrapped word); the
  wrapped words as a [32, 2048, 1] column; the bound 127999, the zero and their broadcasts to the column's shape; the
  comparisons column ≥ 0 and column ≤ 127999 and their conjunction; the bit 1 and the and-reduction of the conjunction
  over the unit axis (the mask, [32, 2048]); the gather of the product's rows at the column; the mask broadcast along
  the feature axis; the fill pattern and its broadcast; the select of the gathered row where the mask bit is 1, of the
  fill elsewhere.

  Every weakly fair execution of such a line terminates, and every buffer ends at the fold of the operations' results
  over the launch contents. Read at the result buffer that fold is the composed term refTerm of the three
  arguments; read at an argument buffer, which no operation writes, it is the argument.
-/
import proofs.«154715_j27685359190360_1_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's twenty-four operations, in order: the product, then the take's twenty-three over the buffers of its call
    (the seventh of them the inner select, over the buffers of the call nested in it). -/
abbrev ops : List (HloOp τ sig (Elt F)) :=
  [ binary main_arg1 main_arg2 main_v0 ((fun l r => Host.dotGeneral dot_S128000x16_S16x1024_S128000x1024_1_0_0_1_n_n none l r) : (⟨S128000x16, .f32⟩ : BufTy).Contents (Elt F) → (⟨S16x1024, .f32⟩ : BufTy).Contents (Elt F) → (⟨S128000x1024, .f32⟩ : BufTy).Contents (Elt F)),
    TRef.nullary main_call0.c (constantI S_ 32 0#32),
    TRef.unary main_call0.c main_call0.v0 (broadcastInDim S32x2048 ![] bcast_S_S32x2048),
    TRef.binary (.of main_arg0) main_call0.v0 main_call0.v1 (cmpi .slt),
    TRef.nullary main_call0.c_0 (constantI S_ 32 128000#32),
    TRef.unary main_call0.c_0 main_call0.v2 (broadcastInDim S32x2048 ![] bcast_S_S32x2048),
    TRef.binary (.of main_arg0) main_call0.v2 main_call0.v3 addi,
    TRef.ternary main_call0.v1 main_call0.v3 (.of main_arg0) main_call0.call0.v0 select,
    TRef.unary main_call0.call0.v0 main_call0.v5 (broadcastInDim S32x2048x1 ![0, 1] bcast_S32x2048_S32x2048x1_0_1),
    TRef.nullary main_call0.c_1 (constantI S1 32 127999#32),
    TRef.nullary main_call0.c_2 (constantI S_ 32 0#32),
    TRef.unary main_call0.c_2 main_call0.v6 (broadcastInDim S32x2048x1 ![] bcast_S_S32x2048x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S32x2048x1 ![0, 1, 2] bcast_S1x1x1_S32x2048x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S32x2048x1_S32x2048_d2 h_S_),
    TRef.binary (.of main_v0) main_call0.v5 main_call0.v13 (fun x i => Host.gather gather_S128000x1024_S32x2048x1_S32x2048x1024_2_0_n_n_0_2_11024 x i),
    TRef.unary main_call0.v12 main_call0.v14 (broadcastInDim S32x2048x1024 ![0, 1] bcast_S32x2048_S32x2048x1024_0_1),
    TRef.nullary main_call0.cst (constant S_ .f32 0x7FC00000#32),
    TRef.unary main_call0.cst main_call0.v15 (broadcastInDim S32x2048x1024 ![] bcast_S_S32x2048x1024),
    TRef.ternary main_call0.v14 main_call0.v13 main_call0.v15 main_call0.v16 select ]

set_option maxRecDepth 1024 in
/-- @main is that straight line: the two functions' definitions unfolded at their calls, both sides are one chain of
    steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..⟩

/-! ## The composed term -/

/-- The index words wrapped by the table's height: a word below zero has 128000 added, any other is kept. -/
def wrapped (idx : IVec S32x2048 32) : IVec S32x2048 32 :=
  select (cmpi .slt idx (broadcastInDim S32x2048 ![] bcast_S_S32x2048 (constantI S_ 32 0#32)))
    (addi idx (broadcastInDim S32x2048 ![] bcast_S_S32x2048 (constantI S_ 32 128000#32))) idx

/-- The wrapped words as a [32, 2048, 1] column: the gather's start indices. -/
def wrappedCol (idx : IVec S32x2048 32) : IVec S32x2048x1 32 :=
  broadcastInDim S32x2048x1 ![0, 1] bcast_S32x2048_S32x2048x1_0_1 (wrapped idx)

/-- The range test of the column, entry by entry: the wrapped word reads signed in [0, 127999]. -/
def testCol (idx : IVec S32x2048 32) : IVec S32x2048x1 1 :=
  andi (cmpi .sge (wrappedCol idx) (broadcastInDim S32x2048x1 ![] bcast_S_S32x2048x1 (constantI S_ 32 0#32)))
    (cmpi .sle (wrappedCol idx)
      (broadcastInDim S32x2048x1 ![0, 1, 2] bcast_S1x1x1_S32x2048x1_0_1_2
        (broadcastInDim S1x1x1 ![2] bcast_S1_S1x1x1_2 (constantI S1 32 127999#32))))

/-- The mask: the range test and-reduced over the column's unit axis, one bit per token. -/
def mask (idx : IVec S32x2048 32) : IVec S32x2048 1 :=
  Host.reduce IntOp.andi (testCol idx) (constantI S_ 1 1#1) reducesTo_S32x2048x1_S32x2048_d2 h_S_

/-- The table: the product of the two factors. -/
def table (A : FVec Ideal S128000x16 .f32) (B : FVec Ideal S16x1024 .f32) : FVec Ideal S128000x1024 .f32 :=
  Host.dotGeneral dot_S128000x16_S16x1024_S128000x1024_1_0_0_1_n_n none A B

/-- THE REFERENCE'S RESULT as a term of the three arguments: the table's rows gathered at the wrapped index column
    where the mask bit is 1, the fill pattern elsewhere. -/
def refTerm (idx : IVec S32x2048 32) (A : FVec Ideal S128000x16 .f32) (B : FVec Ideal S16x1024 .f32) :
    FVec Ideal S32x2048x1024 .f32 :=
  select (broadcastInDim S32x2048x1024 ![0, 1] bcast_S32x2048_S32x2048x1024_0_1 (mask idx))
    (Host.gather gather_S128000x1024_S32x2048x1_S32x2048x1024_2_0_n_n_0_2_11024 (table A B) (wrappedCol idx))
    (broadcastInDim S32x2048x1024 ![] bcast_S_S32x2048x1024 (constant S_ .f32 0x7FC00000#32))

/-! ## The run -/

attribute [local irreducible] Host.reduce Host.gather in
/-- The fold of the twenty-four results, read at the result buffer, is the composed term of the arguments' contents:
    each operation's result at its own buffer is its function's value, at any other buffer what was there, and the typed
    references' casts are the identity at these literal references. -/
theorem after_main_v1 (V : Valuation τ sig (Elt Ideal)) :
    after (ops (F := Ideal)) V (main_v1 : DevRef τ sig)
      = refTerm (V (main_arg0 : DevRef τ sig)) (V (main_arg1 : DevRef τ sig)) (V (main_arg2 : DevRef τ sig)) := by
  after_results
  rfl

/-- No operation writes an argument's buffer. -/
theorem after_main_arg0 (V : Valuation τ sig (Elt F)) :
    after (ops (F := F)) V (main_arg0 : DevRef τ sig) = V (main_arg0 : DevRef τ sig) := by
  after_results
theorem after_main_arg1 (V : Valuation τ sig (Elt F)) :
    after (ops (F := F)) V (main_arg1 : DevRef τ sig) = V (main_arg1 : DevRef τ sig) := by
  after_results
theorem after_main_arg2 (V : Valuation τ sig (Elt F)) :
    after (ops (F := F)) V (main_arg2 : DevRef τ sig) = V (main_arg2 : DevRef τ sig) := by
  after_results

/-- On the one device, at the ideal values, from any memory with zero counters: every weakly fair execution of @main
    terminates with the result buffer at refTerm of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v1).trans (after_main_v1 _),
      (h c main_arg0).trans (after_main_arg0 _),
      (h c main_arg1).trans (after_main_arg1 _),
      (h c main_arg2).trans (after_main_arg2 _)⟩)
    (run_seq scopedRefs_eq scopedSems_eq defs main (fun _ => ops) main_eq (fun _ => ops_sub) m ρ)

end Cert.ReferenceIdeal.RefValue

end
-- ==== Proof.LibGather3.lean ====
/-
  ROWS READ THROUGH A TABLE OF ROW NUMBERS. A host `stablehlo.gather` of an [N × D] operand whose start indices are an
  [n × k × 1] array of row numbers — operand axis 0 collapsed and start-indexed, operand axis 1 whole and read by the
  result's offset axis 2, the index vector on axis 2 — reads, at result element (e, c, j), the operand's element (r, j),
  where r is start index (e, c) read signed and clamped into the operand (`gather_rows3`).
-/
import Idealize.ShloMosaic.Lib.ValueIdx
import Idealize.ShloMosaic.PureOps.Ideal.Laws

open scoped BigOperators

namespace Idealize.ShloMosaic.RowOps3

open Idealize.ShloMosaic Idealize.ShloMosaic.ValueIdx

/-- Entry (e, c) of an [n, k, 1] array of start indices, read signed and clamped into [0, N-1]. -/
def clampRow3 {n k w : Nat} (N : Nat) (hN : 0 < N) (idx : IVec ⟨3, ![n, k, 1]⟩ w) (e : Fin n) (c : Fin k) : Fin N :=
  ⟨min (idx (ix3 e c (0 : Fin 1))).toInt.toNat (N - 1), by omega⟩

/-- Every element of a one-element list is that element. -/
private theorem getElem_singleton_of_eq {β : Type} {l : List β} {b : β} (h : l = [b]) (i : Nat) (hi : i < l.length) :
    l[i] = b :=
  List.mem_singleton.1 (h ▸ List.getElem_mem hi)

/-- The two elements of a two-element list, by position. -/
private theorem getElem_pair_of_eq {β : Type} {l : List β} {a b : β} (h : l = [a, b]) (i : Nat) (hi : i < l.length) :
    (i = 0 → l[i] = a) ∧ (i = 1 → l[i] = b) := by
  subst h
  constructor
  · intro h0; subst h0; rfl
  · intro h1; subst h1; rfl

/-- THE ROW TAKE THROUGH A TABLE. A `stablehlo.gather` of an [N × D] operand whose start indices are an [n × k × 1]
    array of row numbers: operand axis 0 collapsed and start-indexed, operand axis 1 whole (slice sizes [1, D]) and read
    by the result's offset axis 2, no batching axes, the index vector on axis 2. Result element (e, c, j) is the
    operand's element (r, j), r the start index at (e, c) read signed and clamped into [0, N − 1]. -/
theorem gather_rows3 {α : Type} {N D n k w : Nat} (d : GatherDims ⟨2, ![N, D]⟩ ⟨3, ![n, k, 1]⟩ ⟨3, ![n, k, D]⟩)
    (hoff : d.offsetDims = [2]) (hcoll : d.collapsedSliceDims = [0]) (hob : d.operandBatchingDims = [])
    (hsim : d.startIndexMap = [0]) (hivd : d.indexVectorDim = 2) (hss : d.sliceSizes = ![1, D])
    (x : (⟨2, ![N, D]⟩ : Shape).Idx → α) (idx : IVec ⟨3, ![n, k, 1]⟩ w) (e : Fin n) (c : Fin k) (j : Fin D)
    (hN : 0 < N) :
    Host.gather d x idx (ix3 e c j) = x (ix2 (clampRow3 N hN idx e c) j) := by
  have hb : ∀ a : Fin 2, a ∉ d.operandBatchingDims := fun a => by rw [hob]; exact List.not_mem_nil
  -- the result's batch axes: the two axes that are not the offset axis
  have hbd : d.batchDims = [0, 1] := by
    show Shape.kept _ d.offsetDims = [0, 1]
    rw [hoff]
    show (List.finRange 3).filter (fun a : Fin 3 => a ∉ [(2 : Fin 3)]) = [0, 1]
    decide
  -- the start indices' axes but the index vector's
  have hsk : d.siKept = [0, 1] := by
    show (List.finRange 3).filter (fun b : Fin 3 => b.val ≠ d.indexVectorDim) = [0, 1]
    rw [hivd]
    decide
  -- axis 0: collapsed and start-indexed, the clamped start alone
  have h0 : (d.operandIdx (ix3 e c j) idx (0 : Fin 2)).val = (clampRow3 N hN idx e c).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix3 e c j) idx 0 + d.batchCoord (ix3 e c j) 0 + d.offCoord (ix3 e c j) 0
      = min (idx (ix3 e c (0 : Fin 1))).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ix3 e c (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 3, X = 0 → ((ix3 e c j : (⟨3, ![n, k, D]⟩ : Shape).Idx) X).val = e.val :=
        fun X hX => by subst hX; rfl
      exact he _ ((getElem_pair_of_eq hbd _ _).1 (by rw [hsk]; rfl))
    | ⟨1, _⟩ =>
      unfold GatherDims.siIdx
      rw [dif_neg (by rw [hivd]; simp)]
      unfold GatherDims.siCoord
      apply Fin.ext
      simp only [Fin.val_cast]
      have he : ∀ X : Fin 3, X = 1 → ((ix3 e c j : (⟨3, ![n, k, D]⟩ : Shape).Idx) X).val = c.val :=
        fun X hX => by subst hX; rfl
      exact he _ ((getElem_pair_of_eq hbd _ _).2 (by rw [hsk]; rfl))
    | ⟨2, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix3 e c j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix3 e c j) idx 1 + d.batchCoord (ix3 e c j) 1 + d.offCoord (ix3 e c j) 1 = j.val
    rw [GatherDims.batchCoord_eq_zero _ _ _ (hb 1), Nat.add_zero]
    unfold GatherDims.start GatherDims.offCoord
    rw [dif_neg hm, dif_pos hk, Nat.zero_add]
    have hj : ∀ X : Fin 3, X = 2 → ((ix3 e c j : (⟨3, ![n, k, D]⟩ : Shape).Idx) X).val = j.val :=
      fun X hX => by subst hX; rfl
    exact hj _ (getElem_singleton_of_eq hoff _ _)
  unfold Host.gather
  congr 1
  funext a
  apply Fin.ext
  match a with
  | ⟨0, _⟩ => exact h0
  | ⟨1, _⟩ => exact h1

end Idealize.ShloMosaic.RowOps3
-- ==== Proof.LibPlainDot.lean ====
/-
  A HOST DOT PRODUCT READ AT AN ENTRY. jnp's `dot_general` of an m × k matrix by a k × n matrix (the left operand
  contracted on its columns, the right one on its rows, no batch axis) is, at the ideal values and at entry (a, b), the
  sum over the contracted coordinate c of A(a, c) · B(c, b), whatever the precision and the schedule: the same sum a
  kernel's matrix product into the zero splat gives.
-/
import proofs.«154715_j27685359190360_1_alg».proof.Proof.LibPlainMatmul

open scoped BigOperators

noncomputable section

namespace Idealize.ShloMosaic.PlainMatmul

open Idealize.ShloMosaic Idealize.ShloMosaic.ValueIdx

variable {m k n : Nat} {φ₁ φ₂ : FTy}

/-- The host's plain product at entry (a, b): the sum of the products along row a of A and column b of B. -/
theorem dotGeneral_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (sched : HostSchedule) (A : FVec Ideal ⟨2, ![m, k]⟩ φ₁) (B : FVec Ideal ⟨2, ![k, n]⟩ φ₂)
    (a : Fin m) (b : Fin n) :
    FloatOps.dotGeneral d prec sched A B (ix2 a b) = ∑ c : Fin k, A (ix2 a c) * B (ix2 c b) := by
  subst hd
  rw [Ideal.dotGeneral_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.RefValue.lean ====
/-
  THE REFERENCE'S RESULT IS THE LOOKUP. The composed term of the reference's run, read at token (b, s) and feature j,
  is the lookup's sum: under the range hypothesis the index word of token (b, s) wraps to a word that reads signed in
  [0, 127999], so both comparisons of the range test hold at the one entry of the column over token (b, s), the
  and-reduction over that unit axis is 1, the mask broadcast along the feature axis is 1 at (b, s, j), and the select
  keeps the gathered element. The gather reads the table at the row the wrapped word names (its clamp into the table is
  the lookup's own), and the table's entry (row, j) is the sum over the rank coordinate k of A(row, k) · B(k, j).
-/
import proofs.«154715_j27685359190360_1_alg».proof.Proof.RefRun
import proofs.«154715_j27685359190360_1_alg».proof.Proof.Spec
import proofs.«154715_j27685359190360_1_alg».proof.Proof.LibGather3
import proofs.«154715_j27685359190360_1_alg».proof.Proof.LibPlainDot
import proofs.«154715_j27685359190360_1_alg».proof.Proof.LibColumnTake
import Idealize.ShloMosaic.Lib.Pipeline.Value

open scoped BigOperators

noncomputable section

namespace Cert.ReferenceIdeal.RefValue

open Cert.ReferenceIdeal Cert.ReferenceIdeal.Gen Idealize.ShloMosaic Idealize.ShloMosaic.ValueIdx

/-! ## The index words at a token -/

/-- The wrapped array at token (b, s) is the wrap of that token's index word: the two broadcast constants read 0 and
    128000 everywhere. -/
theorem wrapped_apply (idx : IVec S32x2048 32) (b : Fin 32) (s : Fin 2048) :
    wrapped idx (ix2 b s) = Cert.Lookup.wrapWord (idx (ix2 b s)) := rfl

/-- The column over token (b, s) has one entry, the token's wrapped word. -/
theorem wrappedCol_apply (idx : IVec S32x2048 32) (b : Fin 32) (s : Fin 2048) (e : Fin 1) :
    wrappedCol idx (ix3 b s e) = Cert.Lookup.wrapWord (idx (ix2 b s)) := by
  unfold wrappedCol
  refine (broadcastInDim_apply _ bcast_S32x2048_S32x2048x1_0_1 (wrapped idx) (ix3 b s e) (ix2 b s) fun a => ?_).trans
    (wrapped_apply idx b s)
  match a with
  | ⟨0, _⟩ => rfl
  | ⟨1, _⟩ => rfl

/-- The range test at the column's entry over token (b, s) is the test of the token's index word: the bounds'
    broadcasts read 0 and 127999 everywhere. -/
theorem testCol_apply (idx : IVec S32x2048 32) (b : Fin 32) (s : Fin 2048) (e : Fin 1) :
    testCol idx (ix3 b s e) = Cert.Lookup.okWord (idx (ix2 b s)) := by
  show IntOp.andi (IntOp.cmpi .sge (wrappedCol idx (ix3 b s e)) 0#32) (IntOp.cmpi .sle (wrappedCol idx (ix3 b s e)) 127999#32)
    = Cert.Lookup.okWord (idx (ix2 b s))
  rw [wrappedCol_apply]
  rfl

/-! ## The mask -/

/-- The and-reduction of a [32, 2048, 1] column of bits over its unit axis, from the initial bit 1, is 1 at every
    token whose one entry is 1: the entries that drop to token (b, s) are the one entry (b, s, 0). -/
theorem reduce_andi_unit (x : IVec S32x2048x1 1) (init : S_.Idx → BitVec 1)
    (h : S32x2048x1.ReducesTo [2] S32x2048) (hu : 0 < S_.numel) (hinit : init (Shape.Idx.first hu) = 1#1)
    (b : Fin 32) (s : Fin 2048) (hx : ∀ e : Fin 1, x (ix3 b s e) = 1#1) :
    Host.reduce IntOp.andi x init h hu (ix2 b s) = 1#1 := by
  rw [Host.reduce_eq_fold, hinit]
  refine RowOps.fold_andi_one _ _ fun i hi => ?_
  have hd : h.drop i = ix2 b s := (Finset.mem_filter.1 hi).2
  have hv0 : (h.drop i 0 : Nat) = i 0 := Shape.ReducesTo.drop_apply_val h i 0
  have hv1 : (h.drop i 1 : Nat) = i 1 := Shape.ReducesTo.drop_apply_val h i 1
  have h0 : (i 0).val = b.val := by rw [← hv0, hd]
  have h1 : (i 1).val = s.val := by rw [← hv1, hd]
  have hi' : i = ix3 b s (i 2) := by
    funext a
    match a with
    | ⟨0, _⟩ => exact Fin.ext h0
    | ⟨1, _⟩ => exact Fin.ext h1
    | ⟨2, _⟩ => rfl
  rw [hi']; exact hx _

/-- Under the range hypothesis the mask bit of every token is 1. -/
theorem mask_apply (idx : IVec S32x2048 32) (h : Cert.Lookup.InRange idx) (b : Fin 32) (s : Fin 2048) :
    mask idx (ix2 b s) = 1#1 := by
  unfold mask
  refine reduce_andi_unit _ _ _ _ rfl b s fun e => ?_
  rw [testCol_apply]
  exact Cert.Lookup.okWord_eq_one _ (h b s).1 (h b s).2

/-- The mask laid along the feature axis reads, at (b, s, j), the bit of token (b, s). -/
theorem maskBcast_apply (idx : IVec S32x2048 32) (b : Fin 32) (s : Fin 2048) (j : Fin 1024) :
    broadcastInDim S32x2048x1024 ![0, 1] bcast_S32x2048_S32x2048x1024_0_1 (mask idx) (ix3 b s j) = mask idx (ix2 b s) := by
  refine broadcastInDim_apply _ bcast_S32x2048_S32x2048x1024_0_1 (mask idx) (ix3 b s j) (ix2 b s) fun a => ?_
  match a with
  | ⟨0, _⟩ => rfl
  | ⟨1, _⟩ => rfl

/-! ## The gathered row and the table's entry -/

/-- The row the gather reads for token (b, s): the column's entry read signed and clamped into the table is the row
    the token's index word names. -/
theorem clampRow_wrappedCol (idx : IVec S32x2048 32) (b : Fin 32) (s : Fin 2048) :
    RowOps3.clampRow3 128000 (by decide) (wrappedCol idx) b s = Cert.Lookup.rowOf (idx (ix2 b s)) := by
  apply Fin.ext
  show min (wrappedCol idx (ix3 b s (0 : Fin 1))).toInt.toNat (128000 - 1)
    = min (Cert.Lookup.wrapWord (idx (ix2 b s))).toInt.toNat 127999
  rw [wrappedCol_apply]

/-- The gather at (b, s, j) is the table's entry (row, j), the row the one token (b, s)'s index word names. -/
theorem gather_apply (idx : IVec S32x2048 32) (T : FVec Ideal S128000x1024 .f32) (b : Fin 32) (s : Fin 2048) (j : Fin 1024) :
    Host.gather gather_S128000x1024_S32x2048x1_S32x2048x1024_2_0_n_n_0_2_11024 T (wrappedCol idx) (ix3 b s j)
      = T (ix2 (Cert.Lookup.rowOf (idx (ix2 b s))) j) := by
  rw [← clampRow_wrappedCol idx b s]
  exact RowOps3.gather_rows3 gather_S128000x1024_S32x2048x1_S32x2048x1024_2_0_n_n_0_2_11024 rfl rfl rfl rfl rfl rfl
    T (wrappedCol idx) b s j (by decide)

/-- The table's entry (r, j): the sum over the rank coordinate k of A(r, k) · B(k, j). -/
theorem table_apply (A : FVec Ideal S128000x16 .f32) (B : FVec Ideal S16x1024 .f32) (r : Fin 128000) (j : Fin 1024) :
    table A B (ix2 r j) = ∑ k : Fin 16, A (ix2 r k) * B (ix2 k j) :=
  PlainMatmul.dotGeneral_apply dot_S128000x16_S16x1024_S128000x1024_1_0_0_1_n_n
    dot_S128000x16_S16x1024_S128000x1024_1_0_0_1_n_n_wf rfl none .single A B r j

/-! ## The result -/

/-- The composed term at (b, s, j), under the range hypothesis: the mask bit is 1, the select keeps the gathered
    element, which is the table's entry at the named row. -/
theorem refTerm_apply (idx : IVec S32x2048 32) (A : FVec Ideal S128000x16 .f32) (B : FVec Ideal S16x1024 .f32)
    (h : Cert.Lookup.InRange idx) (b : Fin 32) (s : Fin 2048) (j : Fin 1024) :
    refTerm idx A B (ix3 b s j) = ∑ k : Fin 16, A (ix2 (Cert.Lookup.rowOf (idx (ix2 b s))) k) * B (ix2 k j) := by
  unfold refTerm
  rw [select_apply, maskBcast_apply, mask_apply idx h b s, select_one, gather_apply, table_apply]

/-- UNDER THE RANGE HYPOTHESIS THE REFERENCE'S RESULT IS THE LOOKUP, entry by entry. -/
theorem refTerm_eq (idx : IVec S32x2048 32) (A : FVec Ideal S128000x16 .f32) (B : FVec Ideal S16x1024 .f32)
    (h : Cert.Lookup.InRange idx) : refTerm idx A B = Cert.Lookup.lookup idx A B := by
  funext i
  obtain ⟨b, s, j, rfl⟩ : ∃ (b : Fin 32) (s : Fin 2048) (j : Fin 1024), i = ix3 b s j := ⟨i 0, i 1, i 2, eq_ix3 i⟩
  rw [refTerm_apply idx A B h b s j, Cert.Lookup.lookup_apply]

end Cert.ReferenceIdeal.RefValue

end
-- ==== Proof.lean ====
/-
  THE LOW-RANK EMBEDDING LOOKUP: the kernel program against its reference, over the extended reals.

  Both programs compute, at token (b, s) and feature j, entry j of row idx(b, s) of the product of the 128000 × 16
  factor A and the 16 × 1024 factor B. The reference multiplies first (one product of the whole factors) and then
  takes rows of the product by the index words; the kernel program takes rows of A by the same words first and then
  multiplies the 65536 gathered rows by B, sixteen blocks of 4096 rows at a time, narrowing both operands to bf16 on
  the way (the identity at the ideal values). Either way the entry is the sum over the rank coordinate k of
  A(row, k) · B(k, j) with the row named by the token's index word: the same sum term by term, so no algebraic law
  (and no finiteness) is needed.

  Where the two programs can differ is at an index word jnp.take rejects (one that reads signed outside
  [-128000, 128000)): both fill with the NaN pattern, the reference the result's row and the kernel program the
  gathered row of A, which it then multiplies by B (with B zero the product's row is zero, the reference's row the
  fill). The precondition therefore states that every index word reads signed in [-128000, 128000): there the
  range test of the take holds in both programs, and both read the row the wrapped word names.

  The three frames do not need the precondition. The idealization rewrote nothing, so its conjunct is trivial.
-/
import proofs.«154715_j27685359190360_1_alg».proof.Defs
import proofs.«154715_j27685359190360_1_alg».proof.Proof.Gen.Kernel
import proofs.«154715_j27685359190360_1_alg».proof.Proof.Gen.Kernel.Skeleton
import proofs.«154715_j27685359190360_1_alg».proof.Proof.Gen.Kernel.Launch
import proofs.«154715_j27685359190360_1_alg».proof.Proof.Gen.Kernel.Points
import proofs.«154715_j27685359190360_1_alg».proof.Proof.Gen.Kernel.Frame
import proofs.«154715_j27685359190360_1_alg».proof.Proof.Gen.KernelIdeal
import proofs.«154715_j27685359190360_1_alg».proof.Proof.Gen.KernelIdeal.Skeleton
import proofs.«154715_j27685359190360_1_alg».proof.Proof.Gen.KernelIdeal.Launch
import proofs.«154715_j27685359190360_1_alg».proof.Proof.Gen.KernelIdeal.Points
import proofs.«154715_j27685359190360_1_alg».proof.Proof.Gen.KernelIdeal.Frame
import proofs.«154715_j27685359190360_1_alg».proof.Proof.Gen.ReferenceIdeal
import proofs.«154715_j27685359190360_1_alg».proof.Proof.Gen.Pre_finite_inputs
import proofs.«154715_j27685359190360_1_alg».proof.Proof.Spec
import proofs.«154715_j27685359190360_1_alg».proof.Proof.PreRange
import proofs.«154715_j27685359190360_1_alg».proof.Proof.KernelRun
import proofs.«154715_j27685359190360_1_alg».proof.Proof.RefRun
import proofs.«154715_j27685359190360_1_alg».proof.Proof.RefValue
import Idealize.ShloMosaic.Adequacy
import Idealize.ShloMosaic.Init

noncomputable section

namespace Cert.Proof

open Idealize.ShloMosaic Idealize.SL.Sem

/-- The word-level program runs and keeps its arguments. -/
theorem frame_kernel : Cert.frame_Kernel := fun m ρ _ => Cert.Kernel.Gen.frame m ρ

/-- So does the idealized program. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.RefValue.run m ρ)

/-- Both programs end with the lookup of the arguments in their result buffers, under the range the precondition
    states of the index words. -/
theorem algebraic : Cert.algebraic_KernelIdeal_ReferenceIdeal := by
  intro m ρ m' ρ' hpre hagree
  have hr : ∀ c : Dev Cert.KernelIdeal.nD, Cert.Lookup.InRange
      (m ((c.tc : Thread Cert.KernelIdeal.nD Cert.KernelIdeal.τ).loc Cert.KernelIdeal.main_arg0)) :=
    fun c => Cert.Lookup.inRange_of_pre _ _ _ (hpre c)
  refine ⟨_, Cert.KernelIdeal.RunValue.run m ρ hr, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]
  exact Cert.ReferenceIdeal.RefValue.refTerm_eq _ _ _ (hr c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
